-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x12 : Shape := ⟨2, ![32, 12]⟩
abbrev S12 : Shape := ⟨1, ![12]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x12 : S_.BroadcastsInDim S32x12 (![] : Fin 0 → Fin S32x12.rank)
  reducesTo_S32x12_S_d0_1 : S32x12.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg5 : FVec F S12 .f32) (main_v13 : IVec S_ 1) (main_v16 : IVec S32x12 1) : IVec S_ 1 :=
  let main_c_5 : IVec S_ 1 := constantI S_ 1 1#1
  let main_v17 : IVec S_ 1 := (fun x v => Host.reduce IntOp.andi x v reducesTo_S32x12_S_d0_1 h_S_) main_v16 main_c_5
  let main_v18 : IVec S_ 1 := andi main_v13 main_v17
  let main_v19 : FVec F S12 .f32 := Host.absf main_arg5
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x32 .f32) (main_arg3 : FVec F S32 .f32) (main_arg4 : FVec F S32x12 .f32) (main_arg5 : FVec F S12 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg2
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x12 .f32 := Host.absf main_arg4
  let main_cst_4 : FVec F S_ .f32 := constant S_ .f32 0x7F800000#32
  let main_v15 : FVec F S32x12 .f32 := broadcastInDim S32x12 ![] bcast_S_S32x12 main_cst_4
  let main_v16 : IVec S32x12 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x12 : Shape := ⟨2, ![32, 12]⟩
abbrev S12 : Shape := ⟨1, ![12]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x256 : Shape := ⟨2, ![5000, 256]⟩
abbrev S5000x32 : Shape := ⟨2, ![5000, 32]⟩
abbrev S3300000x32 : Shape := ⟨2, ![3300000, 32]⟩
abbrev S1x32 : Shape := ⟨2, ![1, 32]⟩
abbrev S100000x12 : Shape := ⟨2, ![100000, 12]⟩
abbrev S5000x12 : Shape := ⟨2, ![5000, 12]⟩
abbrev S3300000x12 : Shape := ⟨2, ![3300000, 12]⟩
abbrev S1x12 : Shape := ⟨2, ![1, 12]⟩

abbrev nBuf : Space → Nat
  | .hbm => 89
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x12, .f32⟩
  | .hbm, ⟨5, _⟩ => ⟨S12, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x12, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x12, .f32⟩
  | .hbm, ⟨79, _⟩ => ⟨S3300000x1, .f32⟩
  | .hbm, ⟨80, _⟩ => ⟨S3300000x12, .f32⟩
  | .hbm, ⟨81, _⟩ => ⟨S3300000x12, .f32⟩
  | .hbm, ⟨82, _⟩ => ⟨S_, .f32⟩
  | .hbm, ⟨83, _⟩ => ⟨S100000x12, .f32⟩
  | .hbm, ⟨84, _⟩ => ⟨S3300000x1, .i32⟩
  | .hbm, ⟨85, _⟩ => ⟨S100000x12, .f32⟩
  | .hbm, ⟨86, _⟩ => ⟨S1x12, .f32⟩
  | .hbm, ⟨87, _⟩ => ⟨S100000x12, .f32⟩
  | .hbm, ⟨88, _⟩ => ⟨S100000x12, .f32⟩
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32x12, .f32⟩
  | .local _ .vmem, ⟨8, _⟩ => ⟨S5000x12, .f32⟩
  | .local _ .vmem, ⟨9, _⟩ => ⟨S5000x12, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x12 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x12 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S5000x32_S5000x32 : S5000x32.ShapeCasts S5000x32
  inb_S32x12_S32x12_0_0 : ∀ a, (![0, 0] : Fin 2 → Nat) a + S32x12.size a ≤ S32x12.size a
  h_S32x12 : 0 < S32x12.numel
  inb_S5000x12_S5000x12_0_0 : ∀ a, (![0, 0] : Fin 2 → Nat) a + S5000x12.size a ≤ S5000x12.size a
  h_S5000x12 : 0 < S5000x12.numel
  bcast_S3300000x1_S3300000x12_0_1 : S3300000x1.BroadcastsInDim S3300000x12 (![0, 1] : Fin 2 → Fin S3300000x12.rank)
  bcast_S_S100000x12 : S_.BroadcastsInDim S100000x12 (![] : Fin 0 → Fin S100000x12.rank)
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x32_S5000x32_1_0_0_1_n_n_wf : DotDims.WF S5000x256 S256x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x12_S5000x12_1_0_0_1_n_n_wf : DotDims.WF S5000x32 S32x12 S5000x12 [1] [0] [0] [1] [] []
  gather_S100000x12_S3300000x1_S3300000x12_1_0_n_n_0_1_112_wf : GatherDims.WF S100000x12 S3300000x1 S3300000x12 [1] [0] [] [0] [] 1 ![1, 12]
  scatter_S100000x12_S3300000x1_S3300000x12_1_0_0_1_wf : ScatterDims.WF S100000x12 S3300000x1 S3300000x12 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x12.size a ≤ S32x12.size a
  hwx1_1 : ∀ i : grid1.Coords, EltTy.bits .f32 = 32 ∨ (Rect.block (s := S32x12) S32x12.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x12.size a ≤ S100000x12.size a
  hwx1_2 : ∀ i : grid1.Coords, EltTy.bits .f32 = 32 ∨ (Rect.block (s := S100000x12) S5000x12.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x12_S5000x12_1_0_0_1_n_n : DotDims S5000x32 S32x12 S5000x12 where
  lhsContracting := [1]
  rhsContracting := [0]
  lhsNonContracting := [0]
  rhsNonContracting := [1]
  lhsBatch := []
  rhsBatch := []
  wf := dot_S5000x32_S32x12_S5000x12_1_0_0_1_n_n_wf
def gather_S100000x12_S3300000x1_S3300000x12_1_0_n_n_0_1_112 : GatherDims S100000x12 S3300000x1 S3300000x12 where
  offsetDims := [1]
  collapsedSliceDims := [0]
  operandBatchingDims := []
  startIndicesBatchingDims := []
  startIndexMap := [0]
  indexVectorDim := 1
  sliceSizes := ![1, 12]
  wf := gather_S100000x12_S3300000x1_S3300000x12_1_0_n_n_0_1_112_wf
def scatter_S100000x12_S3300000x1_S3300000x12_1_0_0_1 : ScatterDims S100000x12 S3300000x1 S3300000x12 where
  updateWindowDims := [1]
  insertedWindowDims := [0]
  scatterDimsToOperandDims := [0]
  indexVectorDim := 1
  wf := scatter_S100000x12_S3300000x1_S3300000x12_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x12.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x12.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x12 : Shape := ⟨2, ![32, 12]⟩
abbrev S12 : Shape := ⟨1, ![12]⟩
abbrev S1x3200000 : Shape := ⟨2, ![1, 3200000]⟩
abbrev S3200000 : Shape := ⟨1, ![3200000]⟩
abbrev S100000x32 : Shape := ⟨2, ![100000, 32]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x12 : Shape := ⟨2, ![100000, 12]⟩
abbrev S3300000x12 : Shape := ⟨2, ![3300000, 12]⟩
abbrev S1x12 : Shape := ⟨2, ![1, 12]⟩

abbrev nBuf : Space → Nat
  | .hbm => 125
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x12, .f32⟩
  | .hbm, ⟨5, _⟩ => ⟨S12, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x32, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x12, .f32⟩
  | .hbm, ⟨70, _⟩ => ⟨S100000, .i32⟩
  | .hbm, ⟨71, _⟩ => ⟨S3300000, .i32⟩
  | .hbm, ⟨72, _⟩ => ⟨S3300000, .i32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000, .f32⟩
  | .hbm, ⟨105, _⟩ => ⟨S3300000, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x12, .f32⟩
  | .hbm, ⟨115, _⟩ => ⟨S3300000x1, .f32⟩
  | .hbm, ⟨116, _⟩ => ⟨S3300000x12, .f32⟩
  | .hbm, ⟨117, _⟩ => ⟨S3300000x12, .f32⟩
  | .hbm, ⟨118, _⟩ => ⟨S_, .f32⟩
  | .hbm, ⟨119, _⟩ => ⟨S100000x12, .f32⟩
  | .hbm, ⟨120, _⟩ => ⟨S3300000x1, .i32⟩
  | .hbm, ⟨121, _⟩ => ⟨S100000x12, .f32⟩
  | .hbm, ⟨122, _⟩ => ⟨S1x12, .f32⟩
  | .hbm, ⟨123, _⟩ => ⟨S100000x12, .f32⟩
  | .hbm, ⟨124, _⟩ => ⟨S100000x12, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x12_0_1 : S3300000x1.BroadcastsInDim S3300000x12 (![0, 1] : Fin 2 → Fin S3300000x12.rank)
  bcast_S_S100000x12 : S_.BroadcastsInDim S100000x12 (![] : Fin 0 → Fin S100000x12.rank)
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  dot_S100000x256_S256x32_S100000x32_1_0_0_1_n_n_wf : DotDims.WF S100000x256 S256x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x12_S100000x12_1_0_0_1_n_n_wf : DotDims.WF S100000x32 S32x12 S100000x12 [1] [0] [0] [1] [] []
  gather_S100000x12_S3300000x1_S3300000x12_1_0_n_n_0_1_112_wf : GatherDims.WF S100000x12 S3300000x1 S3300000x12 [1] [0] [] [0] [] 1 ![1, 12]
  scatter_S100000x12_S3300000x1_S3300000x12_1_0_0_1_wf : ScatterDims.WF S100000x12 S3300000x1 S3300000x12 [1] [0] [0] 1

variable [Facts₀]

def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x12_S100000x12_1_0_0_1_n_n : DotDims S100000x32 S32x12 S100000x12 where
  lhsContracting := [1]
  rhsContracting := [0]
  lhsNonContracting := [0]
  rhsNonContracting := [1]
  lhsBatch := []
  rhsBatch := []
  wf := dot_S100000x32_S32x12_S100000x12_1_0_0_1_n_n_wf
def gather_S100000x12_S3300000x1_S3300000x12_1_0_n_n_0_1_112 : GatherDims S100000x12 S3300000x1 S3300000x12 where
  offsetDims := [1]
  collapsedSliceDims := [0]
  operandBatchingDims := []
  startIndicesBatchingDims := []
  startIndexMap := [0]
  indexVectorDim := 1
  sliceSizes := ![1, 12]
  wf := gather_S100000x12_S3300000x1_S3300000x12_1_0_n_n_0_1_112_wf
def scatter_S100000x12_S3300000x1_S3300000x12_1_0_0_1 : ScatterDims S100000x12 S3300000x1 S3300000x12 where
  updateWindowDims := [1]
  insertedWindowDims := [0]
  scatterDimsToOperandDims := [0]
  indexVectorDim := 1
  wf := scatter_S100000x12_S3300000x1_S3300000x12_1_0_0_1_wf

class Facts : Prop extends Facts₀ where

variable [Facts]
-- ==== Proof.HostStages.lean ====
/-
  The host side of the kernel's program, stretch by stretch, against the reference's stages.

  Both programs apply the same host operations around their two matrix products: from the edge list the source and
  target index vectors s and d (each edge list row followed by the self loops 0 … 99999), the in-degree of every node
  by a scatter-add of ones over d, dis = 1/sqrt(deg) where deg > 0 and 0 elsewhere, and the edge weight
  norm = dis[s] * dis[d]; then, per layer, the rows of the product gathered at s, scaled by norm, scatter-added over d,
  plus the bias (and the maximum with 0 after the first layer). The reference computes s, d and norm once per layer
  and the kernel's program once in all: the second copies are the same functions of the edge list.

  Each lemma below runs ONE stretch of host operations from an arbitrary valuation U of the buffers: if the buffers the
  stretch reads hold the reference's stage values, the buffer it ends in holds the reference's next stage value. A buffer
  that no operation of a stretch writes keeps its contents.
-/
import proofs.«123318_j67259187855731_1_alg».proof.Proof.Gen.KernelIdeal.Frame
import proofs.«123318_j67259187855731_1_alg».proof.Proof.ReferenceIdealRead
import Idealize.ShloMosaic.Lib.StableHlo.Run

set_option maxRecDepth 16384

noncomputable section

namespace Cert.KernelIdeal.HostStages

open Cert.KernelIdeal Cert.KernelIdeal.Gen Cert.ReferenceIdeal.ReadP
open Idealize.ShloMosaic Idealize.ShloMosaic.TcCoe Idealize.SL.Sem Idealize.ShloMosaic.StableHlo

/-- A buffer that no operation of the stretch writes keeps its contents: the list's write sets, one by one. -/
macro "keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

section Stretches

variable {F : FTy → Type} [FloatOps F]
variable (U : Valuation τ sig (Elt F))

/-! ## What each stretch leaves untouched -/

theorem keepA_arg0 : StableHlo.after (hostOps0 (F := F)) U (Proc.devRef .tc main_arg0) = U (Proc.devRef .tc main_arg0) := by keeps hostOps0
theorem keepA_arg2 : StableHlo.after (hostOps0 (F := F)) U (Proc.devRef .tc main_arg2) = U (Proc.devRef .tc main_arg2) := by keeps hostOps0
theorem keepA_arg3 : StableHlo.after (hostOps0 (F := F)) U (Proc.devRef .tc main_arg3) = U (Proc.devRef .tc main_arg3) := by keeps hostOps0
theorem keepA_arg4 : StableHlo.after (hostOps0 (F := F)) U (Proc.devRef .tc main_arg4) = U (Proc.devRef .tc main_arg4) := by keeps hostOps0
theorem keepA_arg5 : StableHlo.after (hostOps0 (F := F)) U (Proc.devRef .tc main_arg5) = U (Proc.devRef .tc main_arg5) := by keeps hostOps0
theorem keepB_v5 : StableHlo.after (hostOps0_1 (F := F)) U (Proc.devRef .tc main_v5) = U (Proc.devRef .tc main_v5) := by keeps hostOps0_1
theorem keepB_v6 : StableHlo.after (hostOps0_1 (F := F)) U (Proc.devRef .tc main_v6) = U (Proc.devRef .tc main_v6) := by keeps hostOps0_1
theorem keepB_arg0 : StableHlo.after (hostOps0_1 (F := F)) U (Proc.devRef .tc main_arg0) = U (Proc.devRef .tc main_arg0) := by keeps hostOps0_1
theorem keepB_arg2 : StableHlo.after (hostOps0_1 (F := F)) U (Proc.devRef .tc main_arg2) = U (Proc.devRef .tc main_arg2) := by keeps hostOps0_1
theorem keepB_arg3 : StableHlo.after (hostOps0_1 (F := F)) U (Proc.devRef .tc main_arg3) = U (Proc.devRef .tc main_arg3) := by keeps hostOps0_1
theorem keepB_arg4 : StableHlo.after (hostOps0_1 (F := F)) U (Proc.devRef .tc main_arg4) = U (Proc.devRef .tc main_arg4) := by keeps hostOps0_1
theorem keepB_arg5 : StableHlo.after (hostOps0_1 (F := F)) U (Proc.devRef .tc main_arg5) = U (Proc.devRef .tc main_arg5) := by keeps hostOps0_1
theorem keepC_v5 : StableHlo.after (hostOps0_2 (F := F)) U (Proc.devRef .tc main_v5) = U (Proc.devRef .tc main_v5) := by keeps hostOps0_2
theorem keepC_v6 : StableHlo.after (hostOps0_2 (F := F)) U (Proc.devRef .tc main_v6) = U (Proc.devRef .tc main_v6) := by keeps hostOps0_2
theorem keepC_arg0 : StableHlo.after (hostOps0_2 (F := F)) U (Proc.devRef .tc main_arg0) = U (Proc.devRef .tc main_arg0) := by keeps hostOps0_2
theorem keepC_arg2 : StableHlo.after (hostOps0_2 (F := F)) U (Proc.devRef .tc main_arg2) = U (Proc.devRef .tc main_arg2) := by keeps hostOps0_2
theorem keepC_arg3 : StableHlo.after (hostOps0_2 (F := F)) U (Proc.devRef .tc main_arg3) = U (Proc.devRef .tc main_arg3) := by keeps hostOps0_2
theorem keepC_arg4 : StableHlo.after (hostOps0_2 (F := F)) U (Proc.devRef .tc main_arg4) = U (Proc.devRef .tc main_arg4) := by keeps hostOps0_2
theorem keepC_arg5 : StableHlo.after (hostOps0_2 (F := F)) U (Proc.devRef .tc main_arg5) = U (Proc.devRef .tc main_arg5) := by keeps hostOps0_2
theorem keepD_v5 : StableHlo.after (hostOps1 (F := F)) U (Proc.devRef .tc main_v5) = U (Proc.devRef .tc main_v5) := by keeps hostOps1
theorem keepD_v6 : StableHlo.after (hostOps1 (F := F)) U (Proc.devRef .tc main_v6) = U (Proc.devRef .tc main_v6) := by keeps hostOps1
theorem keepD_v29 : StableHlo.after (hostOps1 (F := F)) U (Proc.devRef .tc main_v29) = U (Proc.devRef .tc main_v29) := by keeps hostOps1
theorem keepD_arg4 : StableHlo.after (hostOps1 (F := F)) U (Proc.devRef .tc main_arg4) = U (Proc.devRef .tc main_arg4) := by keeps hostOps1
theorem keepD_arg5 : StableHlo.after (hostOps1 (F := F)) U (Proc.devRef .tc main_arg5) = U (Proc.devRef .tc main_arg5) := by keeps hostOps1
theorem keepE_v5 : StableHlo.after (hostOps1_1 (F := F)) U (Proc.devRef .tc main_v5) = U (Proc.devRef .tc main_v5) := by keeps hostOps1_1
theorem keepE_v6 : StableHlo.after (hostOps1_1 (F := F)) U (Proc.devRef .tc main_v6) = U (Proc.devRef .tc main_v6) := by keeps hostOps1_1
theorem keepE_v29 : StableHlo.after (hostOps1_1 (F := F)) U (Proc.devRef .tc main_v29) = U (Proc.devRef .tc main_v29) := by keeps hostOps1_1
theorem keepE_arg4 : StableHlo.after (hostOps1_1 (F := F)) U (Proc.devRef .tc main_arg4) = U (Proc.devRef .tc main_arg4) := by keeps hostOps1_1
theorem keepE_arg5 : StableHlo.after (hostOps1_1 (F := F)) U (Proc.devRef .tc main_arg5) = U (Proc.devRef .tc main_arg5) := by keeps hostOps1_1

/-! ## The second layer's copies of s, d and norm are the first layer's -/

theorem second_src (x1 : (⟨S2x3200000, .i32⟩ : BufTy).Contents (Elt F)) : val_main_v50 (F := F) x1 = val_main_v6 (F := F) x1 := rfl
theorem second_dst (x1 : (⟨S2x3200000, .i32⟩ : BufTy).Contents (Elt F)) : val_main_v51 (F := F) x1 = val_main_v7 (F := F) x1 := rfl
theorem second_norm (x1 : (⟨S2x3200000, .i32⟩ : BufTy).Contents (Elt F)) : val_main_v74 (F := F) x1 = val_main_v30 (F := F) x1 := rfl

/-! ## The first stretch: s, d, the degree's sign test and its reciprocal square root, from the edge list -/

variable (x0 : (⟨S100000x256, .f32⟩ : BufTy).Contents (Elt F)) (x1 : (⟨S2x3200000, .i32⟩ : BufTy).Contents (Elt F)) (x2 : (⟨S256x32, .f32⟩ : BufTy).Contents (Elt F))
  (x3 : (⟨S32, .f32⟩ : BufTy).Contents (Elt F)) (x4 : (⟨S32x12, .f32⟩ : BufTy).Contents (Elt F)) (x5 : (⟨S12, .f32⟩ : BufTy).Contents (Elt F))

theorem src_of_edges (h1 : U (Proc.devRef .tc main_arg1) = x1) :
    StableHlo.after (hostOps0 (F := F)) U (Proc.devRef .tc main_v5) = val_main_v6 (F := F) x1 := by
  after_results; rw [h1]; rfl
theorem dst_of_edges (h1 : U (Proc.devRef .tc main_arg1) = x1) :
    StableHlo.after (hostOps0 (F := F)) U (Proc.devRef .tc main_v6) = val_main_v7 (F := F) x1 := by
  after_results; rw [h1]; rfl
theorem degpos_of_edges (h1 : U (Proc.devRef .tc main_arg1) = x1) :
    StableHlo.after (hostOps0 (F := F)) U (Proc.devRef .tc main_v12) = val_main_v13 (F := F) x1 := by
  after_results; rw [h1]; rfl
theorem rsqrtdeg_of_edges (h1 : U (Proc.devRef .tc main_arg1) = x1) :
    StableHlo.after (hostOps0 (F := F)) U (Proc.devRef .tc main_v13) = val_main_v14 (F := F) x1 := by
  after_results; rw [h1]; rfl
theorem zero_of_edges :
    StableHlo.after (hostOps0 (F := F)) U (Proc.devRef .tc main_cst_2) = val_main_cst_2 (F := F) := by
  after_results; rfl

/-! ## The select: dis = rsqrt(deg) where deg > 0, else 0 -/

theorem dis_of (h12 : U (Proc.devRef .tc main_v12) = val_main_v13 (F := F) x1) (h13 : U (Proc.devRef .tc main_v13) = val_main_v14 (F := F) x1)
    (hc : U (Proc.devRef .tc main_cst_2) = val_main_cst_2 (F := F)) :
    StableHlo.after (hostOps0_1 (F := F)) U (Proc.devRef .tc main_v14) = val_main_v15 (F := F) x1 := by
  after_results_simp
  try simp only [TRef.ofBuf, TRef.toBuf, cast_eq]
  rw [h12, h13, hc]; rfl

/-! ## The edge weights: norm = dis[s] * dis[d] -/

set_option maxHeartbeats 2000000 in
theorem norm_of (h5 : U (Proc.devRef .tc main_v5) = val_main_v6 (F := F) x1) (h6 : U (Proc.devRef .tc main_v6) = val_main_v7 (F := F) x1)
    (h14 : U (Proc.devRef .tc main_v14) = val_main_v15 (F := F) x1) :
    StableHlo.after (hostOps0_2 (F := F)) U (Proc.devRef .tc main_v29) = val_main_v30 (F := F) x1 := by
  after_results_simp
  rw [h5, h6, h14]
  rfl

/-! ## The first layer's aggregation: gather at s, scale by norm, scatter-add over d, plus the bias -/

set_option maxHeartbeats 2000000 in
theorem agg1_of (h5 : U (Proc.devRef .tc main_v5) = val_main_v6 (F := F) x1) (h6 : U (Proc.devRef .tc main_v6) = val_main_v7 (F := F) x1)
    (h29 : U (Proc.devRef .tc main_v29) = val_main_v30 (F := F) x1) (h30 : U (Proc.devRef .tc main_v30) = val_main_v4 (F := F) x0 x2)
    (h3 : U (Proc.devRef .tc main_arg3) = x3) :
    StableHlo.after (hostOps1 (F := F)) U (Proc.devRef .tc main_v46) = val_main_v46 (F := F) x0 x1 x2 x3 := by
  after_results_simp
  rw [h5, h6, h29, h30, h3]
  rfl

/-! ## The maximum with zero -/

theorem relu_of (h46 : U (Proc.devRef .tc main_v46) = val_main_v46 (F := F) x0 x1 x2 x3) :
    StableHlo.after (hostOps1_1 (F := F)) U (Proc.devRef .tc main_v47) = val_main_v47 (F := F) x0 x1 x2 x3 := by
  after_results_simp
  try simp only [TRef.ofBuf, TRef.toBuf, cast_eq]
  rw [h46]; rfl

/-! ## The second layer's aggregation -/

set_option maxHeartbeats 2000000 in
theorem agg2_of (h5 : U (Proc.devRef .tc main_v5) = val_main_v50 (F := F) x1) (h6 : U (Proc.devRef .tc main_v6) = val_main_v51 (F := F) x1)
    (h29 : U (Proc.devRef .tc main_v29) = val_main_v74 (F := F) x1) (h48 : U (Proc.devRef .tc main_v48) = val_main_v48 (F := F) x0 x1 x2 x3 x4)
    (h5' : U (Proc.devRef .tc main_arg5) = x5) :
    StableHlo.after (hostOps2 (F := F)) U (Proc.devRef .tc main_v64) = val_main_v90 (F := F) x0 x1 x2 x3 x4 x5 := by
  after_results_simp
  rw [h5, h6, h29, h48, h5']
  rfl

end Stretches

end Cert.KernelIdeal.HostStages

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.LibPlainProduct.lean ====
/-
  A plain matrix product as one function of its two whole operands.

  For an M×K left operand and a K×N right operand the product is the array whose entry (p, q) is the sum over κ of
  l (p, κ) * r (κ, q) on the extended reals. The host's dot_general and the accelerator's matmul into the zero
  accumulator, for dimension numbers that contract the left axis 1 with the right axis 0 and have no batch axes,
  are both this array.
-/
import proofs.«123318_j67259187855731_1_alg».proof.Proof.LibPlainDot

noncomputable section

open scoped BigOperators

namespace Idealize.ShloMosaic.PlainDot
open Idealize.ShloMosaic Idealize.ShloMosaic.ValueIdx

/-- The M×K by K×N product, entry by entry. -/
def prod {M K N : Nat} {φ₁ φ₂ : FTy} (l : FVec Ideal ⟨2, ![M, K]⟩ φ₁) (r : FVec Ideal ⟨2, ![K, N]⟩ φ₂) :
    FVec Ideal ⟨2, ![M, N]⟩ .f32 :=
  fun i => ∑ κ : Fin K, l (ix2 (i 0) κ) * r (ix2 κ (i 1))

theorem prod_ix2 {M K N : Nat} {φ₁ φ₂ : FTy} (l : FVec Ideal ⟨2, ![M, K]⟩ φ₁) (r : FVec Ideal ⟨2, ![K, N]⟩ φ₂)
    (p : Fin M) (q : Fin N) : prod l r (ix2 p q) = ∑ κ : Fin K, l (ix2 p κ) * r (ix2 κ q) := rfl

/-- The host's dot_general with plain dimension numbers is the product. -/
theorem dotGeneral_eq_prod {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) :
    Host.dotGeneral d prec l r = prod l r := by
  funext i
  obtain ⟨p, q, rfl⟩ : ∃ (p : Fin M) (q : Fin N), i = ix2 p q := ⟨i 0, i 1, eq_ix2 i⟩
  exact dotGeneral_plain d hd prec _ l r p q

/-- The accelerator's matmul into the zero accumulator with plain dimension numbers is the product. -/
theorem matmul_zero_eq_prod {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) :
    matmul d prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_zero_plain d hd prec l r p q

end Idealize.ShloMosaic.PlainDot

end
-- ==== Proof.FirstProduct.lean ====
/-
  The first pallas_call (x times W1): what its output array holds when the region is left.

  The pipeline visits twenty grid points; at point t it loads rows 5000 t … 5000 t + 4999 of the left operand and the
  whole right operand, stores the product of the two (a change of float format is the identity on the extended reals,
  and a matmul into the zero accumulator is the plain sum of products), and writes the block back to rows
  5000 t … 5000 t + 4999 of the output. Entry (p, q) of that block is the sum over κ of left (5000 t + p, κ) * right (κ, q):
  the same entry of the product of the whole arrays. The twenty row blocks tile the 100000 rows, so after the last
  point the output array is the product of the two arrays the region found on entry.
-/
import proofs.«123318_j67259187855731_1_alg».proof.Proof.Gen.KernelIdeal.Frame
import proofs.«123318_j67259187855731_1_alg».proof.Proof.LibPlainProduct
import Idealize.ShloMosaic.Lib.Pipeline.Value

set_option maxRecDepth 16384

noncomputable section

namespace Cert.KernelIdeal.FirstProduct

open Cert.KernelIdeal Cert.KernelIdeal.Gen
open Idealize.ShloMosaic Idealize.ShloMosaic.TcCoe Idealize.SL.Sem
open Idealize.ShloMosaic.ValueIdx Idealize.ShloMosaic.PlainDot
open Idealize.ShloMosaic.Pipeline (Dat)

-- the buffer contents the region is entered with: a parameter, as in the frame
variable (V : (c : Dev nD) → (b : Ref sig .tc) → Buf (Elt Ideal) ((c : Thread nD τ).loc b))

/-- The two arrays the region reads, named at their literal types. -/
abbrev left (c : Dev nD) : FVec Ideal ⟨2, ![100000, 256]⟩ .f32 := V c main_arg0
abbrev right (c : Dev nD) : FVec Ideal ⟨2, ![256, 32]⟩ .f32 := V c main_arg2

theorem offsets_zero : (![0, 0] : Fin 2 → Nat) = fun _ => 0 := funext fun a => by fin_cases a <;> rfl

/-- The body's dimension numbers: left axis 1 contracted with right axis 0, no batch axes. -/
theorem plain : IsPlain (M := 5000) (K := 256) (N := 32) dot_S5000x256_S256x32_S5000x32_1_0_0_1_n_n := ⟨rfl, rfl, rfl, rfl, rfl, rfl⟩

/-- What the body stores is the product of the row block it loaded with the right operand it loaded. -/
theorem payload_eq (x0 : Vec Ideal S5000x256 .f32) (x1 : Vec Ideal S256x32 .f32) :
    k0_pay1 (F := Ideal) x0 x1 = prod (M := 5000) (K := 256) (N := 32) (φ₁ := .f32) (φ₂ := .f32) x0 x1 := by
  unfold k0_pay1
  exact matmul_zero_eq_prod (M := 5000) (K := 256) (N := 32) _ plain none _ _

/-- The printed index maps over the grid: the left operand's and the output's row block is the point's number, every
    other block index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is row block t of the product of the two arrays the region was entered with. -/
theorem flushed_eq (c : Dev nD) (t : Fin cfg0.N) :
    (dat0 V c).flushed 2 t = ((cfg0.win 2).blk t).view.read (Elt Ideal) (prod (M := 100000) (K := 256) (N := 32) (φ₁ := .f32) (φ₂ := .f32) (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x256) offsets_zero, View.ld_unit_zero (S := S256x32) offsets_zero]
  rw [payload_eq]
  obtain ⟨e0, e1, e2, e3, e4, e5⟩ := index_facts t
  funext j
  show (∑ κ : Fin 256, left V c (((cfg0.win 0).blk t).view.emb (ix2 (j 0) κ)) * right V c (((cfg0.win 1).blk t).view.emb (ix2 κ (j 1))))
     = ∑ κ : Fin 256, left V c (ix2 ((((cfg0.win 2).blk t).view.emb j) 0) κ) * right V c (ix2 κ ((((cfg0.win 2).blk t).view.emb j) 1))
  refine Finset.sum_congr rfl fun κ _ => ?_
  have h0 : ((cfg0.win 0).blk t).view.emb (ix2 (j 0) κ) = ix2 ((((cfg0.win 2).blk t).view.emb j) 0) κ := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * κ.val = κ.val; omega
  have h1 : ((cfg0.win 1).blk t).view.emb (ix2 κ (j 1)) = ix2 κ ((((cfg0.win 2).blk t).view.emb j) 1) := by
    funext a; apply Fin.ext
    match a with
    | ⟨0, _⟩ => show win0_1.index t (0 : Fin 2) * 256 + 1 * κ.val = κ.val; omega
    | ⟨1, _⟩ => show win0_1.index t (1 : Fin 2) * 32 + 1 * (j 1).val = win0_2.index t (1 : Fin 2) * 32 + 1 * (j 1).val; omega
  rw [h0, h1]
  rfl

/-- An index of the output array is in point t's block iff each coordinate is in the block's range on its axis. -/
theorem mem_block (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v30).slice (win0_2.rect t)).set ↔ _
  rw [View.set_slice_whole, Rect.mem_set_unit]
  exact Iff.rfl

/-- Every entry of the output array lies in some point's block: row r is in block r / 5000. -/
theorem covered (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  have ht : (i 0).val / 5000 < cfg0.N := by rw [hN]; omega
  obtain ⟨e0, e1, e2, e3, e4, e5⟩ := index_facts ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 32 ≤ (i 1).val ∧ (i 1).val < win0_2.index ⟨(i 0).val / 5000, ht⟩ (1 : Fin 2) * 32 + 32
    rw [e5]; omega

/-- After the region the output array is the product of the two arrays the region was entered with. -/
theorem array_eq (c : Dev nD) :
    (dat0 V c).arrAt 2 cfg0.N = prod (M := 100000) (K := 256) (N := 32) (φ₁ := .f32) (φ₂ := .f32) (V c main_arg0) (V c main_arg2) :=
  (dat0 V c).arrAt_eq_of_cover 2 _ (fun t _ => flushed_eq V c t) (covered)

end Cert.KernelIdeal.FirstProduct

end
-- ==== Proof.SecondProduct.lean ====
/-
  The second pallas_call (the first layer's output times W2): what its output array holds when the region is left.

  The pipeline visits twenty grid points; at point t it loads rows 5000 t … 5000 t + 4999 of the left operand and the
  whole right operand, stores the product of the two (a change of float format is the identity on the extended reals,
  and a matmul into the zero accumulator is the plain sum of products), and writes the block back to rows
  5000 t … 5000 t + 4999 of the output. Entry (p, q) of that block is the sum over κ of left (5000 t + p, κ) * right (κ, q):
  the same entry of the product of the whole arrays. The twenty row blocks tile the 100000 rows, so after the last
  point the output array is the product of the two arrays the region found on entry.
-/
import proofs.«123318_j67259187855731_1_alg».proof.Proof.Gen.KernelIdeal.Frame
import proofs.«123318_j67259187855731_1_alg».proof.Proof.LibPlainProduct
import Idealize.ShloMosaic.Lib.Pipeline.Value

set_option maxRecDepth 16384

noncomputable section

namespace Cert.KernelIdeal.SecondProduct

open Cert.KernelIdeal Cert.KernelIdeal.Gen
open Idealize.ShloMosaic Idealize.ShloMosaic.TcCoe Idealize.SL.Sem
open Idealize.ShloMosaic.ValueIdx Idealize.ShloMosaic.PlainDot
open Idealize.ShloMosaic.Pipeline (Dat)

-- the buffer contents the region is entered with: a parameter, as in the frame
variable (V : (c : Dev nD) → (b : Ref sig .tc) → Buf (Elt Ideal) ((c : Thread nD τ).loc b))

/-- The two arrays the region reads, named at their literal types. -/
abbrev left (c : Dev nD) : FVec Ideal ⟨2, ![100000, 32]⟩ .f32 := V c main_v47
abbrev right (c : Dev nD) : FVec Ideal ⟨2, ![32, 12]⟩ .f32 := V c main_arg4

theorem offsets_zero : (![0, 0] : Fin 2 → Nat) = fun _ => 0 := funext fun a => by fin_cases a <;> rfl

/-- The body's dimension numbers: left axis 1 contracted with right axis 0, no batch axes. -/
theorem plain : IsPlain (M := 5000) (K := 32) (N := 12) dot_S5000x32_S32x12_S5000x12_1_0_0_1_n_n := ⟨rfl, rfl, rfl, rfl, rfl, rfl⟩

/-- What the body stores is the product of the row block it loaded with the right operand it loaded. -/
theorem payload_eq (x0 : Vec Ideal S5000x32 .f32) (x1 : Vec Ideal S32x12 .f32) :
    k1_pay1 (F := Ideal) x0 x1 = prod (M := 5000) (K := 32) (N := 12) (φ₁ := .f32) (φ₂ := .f32) x0 x1 := by
  unfold k1_pay1
  rw [shapeCast_self]
  exact matmul_zero_eq_prod (M := 5000) (K := 32) (N := 12) _ plain none _ _

/-- The printed index maps over the grid: the left operand's and the output's row block is the point's number, every
    other block index is zero. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is row block t of the product of the two arrays the region was entered with. -/
theorem flushed_eq (c : Dev nD) (t : Fin cfg1.N) :
    (dat1 V c).flushed 2 t = ((cfg1.win 2).blk t).view.read (Elt Ideal) (prod (M := 100000) (K := 32) (N := 12) (φ₁ := .f32) (φ₂ := .f32) (V c main_v47) (V c main_arg4)) := by
  show (cfg1.win 2).cut (grid1.coords t) ((dat1 V c).after 2 t) = _
  rw [after1_2]
  unfold out1_2
  rw [View.canon_unit_zero offsets_zero]
  simp only [View.ld_unit_zero (S := S5000x32) offsets_zero, View.ld_unit_zero (S := S32x12) offsets_zero]
  rw [payload_eq]
  obtain ⟨e0, e1, e2, e3, e4, e5⟩ := index_facts t
  funext j
  show (∑ κ : Fin 32, left V c (((cfg1.win 0).blk t).view.emb (ix2 (j 0) κ)) * right V c (((cfg1.win 1).blk t).view.emb (ix2 κ (j 1))))
     = ∑ κ : Fin 32, left V c (ix2 ((((cfg1.win 2).blk t).view.emb j) 0) κ) * right V c (ix2 κ ((((cfg1.win 2).blk t).view.emb j) 1))
  refine Finset.sum_congr rfl fun κ _ => ?_
  have h0 : ((cfg1.win 0).blk t).view.emb (ix2 (j 0) κ) = ix2 ((((cfg1.win 2).blk t).view.emb j) 0) κ := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 32 + 1 * κ.val = κ.val; omega
  have h1 : ((cfg1.win 1).blk t).view.emb (ix2 κ (j 1)) = ix2 κ ((((cfg1.win 2).blk t).view.emb j) 1) := by
    funext a; apply Fin.ext
    match a with
    | ⟨0, _⟩ => show win1_1.index t (0 : Fin 2) * 32 + 1 * κ.val = κ.val; omega
    | ⟨1, _⟩ => show win1_1.index t (1 : Fin 2) * 12 + 1 * (j 1).val = win1_2.index t (1 : Fin 2) * 12 + 1 * (j 1).val; omega
  rw [h0, h1]
  rfl

/-- An index of the output array is in point t's block iff each coordinate is in the block's range on its axis. -/
theorem mem_block (t : Fin cfg1.N) (i : S100000x12.Idx) :
    i ∈ ((cfg1.win 2).blk t).view.set ↔ ∀ a : Fin 2, win1_2.index t a * S5000x12.size a ≤ (i a).val ∧ (i a).val < win1_2.index t a * S5000x12.size a + S5000x12.size a := by
  show i ∈ ((View.whole main_v48).slice (win1_2.rect t)).set ↔ _
  rw [View.set_slice_whole, Rect.mem_set_unit]
  exact Iff.rfl

/-- Every entry of the output array lies in some point's block: row r is in block r / 5000. -/
theorem covered (i : S100000x12.Idx) : ∃ t : Fin cfg1.N, (cfg1.win 2).flush t = true ∧ i ∈ ((cfg1.win 2).blk t).view.set := by
  have hi0 : (i 0).val < 100000 := (i 0).isLt
  have hi1 : (i 1).val < 12 := (i 1).isLt
  have hN : cfg1.N = 20 := N_1
  have ht : (i 0).val / 5000 < cfg1.N := by rw [hN]; omega
  obtain ⟨e0, e1, e2, e3, e4, e5⟩ := index_facts ⟨(i 0).val / 5000, ht⟩
  refine ⟨⟨(i 0).val / 5000, ht⟩, flush1_2 _, ?_⟩
  rw [mem_block]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 12 ≤ (i 1).val ∧ (i 1).val < win1_2.index ⟨(i 0).val / 5000, ht⟩ (1 : Fin 2) * 12 + 12
    rw [e5]; omega

/-- After the region the output array is the product of the two arrays the region was entered with. -/
theorem array_eq (c : Dev nD) :
    (dat1 V c).arrAt 2 cfg1.N = prod (M := 100000) (K := 32) (N := 12) (φ₁ := .f32) (φ₂ := .f32) (V c main_v47) (V c main_arg4) :=
  (dat1 V c).arrAt_eq_of_cover 2 _ (fun t _ => flushed_eq V c t) (covered)

end Cert.KernelIdeal.SecondProduct

end
-- ==== Proof.Boundaries.lean ====
/-
  The run's boundaries: what the buffers hold between the stretches and the two regions, as the reference's stages.

  From the launch memory: after the first three stretches the index vectors s and d and the edge weights norm are the
  reference's functions of the edge list; the first region leaves x times W1 in its output array and touches no other
  buffer; the next two stretches leave the first layer's output relu(agg + b1); the second region leaves that times W2;
  the last stretch leaves the second layer's output, which is the reference's result (its second copies of s, d and
  norm being the first ones).
-/
import proofs.«123318_j67259187855731_1_alg».proof.Proof.HostStages
import proofs.«123318_j67259187855731_1_alg».proof.Proof.FirstProduct
import proofs.«123318_j67259187855731_1_alg».proof.Proof.SecondProduct

set_option maxRecDepth 16384

noncomputable section

namespace Cert.KernelIdeal.Boundaries

open Cert.KernelIdeal Cert.KernelIdeal.Gen Cert.ReferenceIdeal.ReadP Cert.KernelIdeal.HostStages
open Idealize.ShloMosaic Idealize.ShloMosaic.TcCoe Idealize.SL.Sem Idealize.ShloMosaic.StableHlo Idealize.ShloMosaic.PlainDot

variable (m : (ℓ : Loc nD τ sig) → Buf (Elt Ideal) ℓ) (ρ : Dev nD → PrngReg) (c : Dev nD)

/-- The arguments as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-! ## After the first stretch -/

theorem W1_src : W1 m ρ c (Proc.devRef .tc main_v5) = val_main_v6 (F := Ideal) (a1 m c) := src_of_edges (W0 m ρ c) (a1 m c) rfl
theorem W1_dst : W1 m ρ c (Proc.devRef .tc main_v6) = val_main_v7 (F := Ideal) (a1 m c) := dst_of_edges (W0 m ρ c) (a1 m c) rfl
theorem W1_degpos : W1 m ρ c (Proc.devRef .tc main_v12) = val_main_v13 (F := Ideal) (a1 m c) := degpos_of_edges (W0 m ρ c) (a1 m c) rfl
theorem W1_rsqrtdeg : W1 m ρ c (Proc.devRef .tc main_v13) = val_main_v14 (F := Ideal) (a1 m c) := rsqrtdeg_of_edges (W0 m ρ c) (a1 m c) rfl
theorem W1_zero : W1 m ρ c (Proc.devRef .tc main_cst_2) = val_main_cst_2 (F := Ideal) := zero_of_edges (W0 m ρ c)
theorem W1_arg0 : W1 m ρ c (Proc.devRef .tc main_arg0) = a0 m c := keepA_arg0 (W0 m ρ c)
theorem W1_arg2 : W1 m ρ c (Proc.devRef .tc main_arg2) = a2 m c := keepA_arg2 (W0 m ρ c)
theorem W1_arg3 : W1 m ρ c (Proc.devRef .tc main_arg3) = a3 m c := keepA_arg3 (W0 m ρ c)
theorem W1_arg4 : W1 m ρ c (Proc.devRef .tc main_arg4) = a4 m c := keepA_arg4 (W0 m ρ c)
theorem W1_arg5 : W1 m ρ c (Proc.devRef .tc main_arg5) = a5 m c := keepA_arg5 (W0 m ρ c)

/-! ## After the select -/

theorem W2_dis : W2 m ρ c (Proc.devRef .tc main_v14) = val_main_v15 (F := Ideal) (a1 m c) :=
  dis_of (W1 m ρ c) (a1 m c) (W1_degpos m ρ c) (W1_rsqrtdeg m ρ c) (W1_zero m ρ c)
theorem W2_src : W2 m ρ c (Proc.devRef .tc main_v5) = val_main_v6 (F := Ideal) (a1 m c) := (keepB_v5 (W1 m ρ c)).trans (W1_src m ρ c)
theorem W2_dst : W2 m ρ c (Proc.devRef .tc main_v6) = val_main_v7 (F := Ideal) (a1 m c) := (keepB_v6 (W1 m ρ c)).trans (W1_dst m ρ c)
theorem W2_arg0 : W2 m ρ c (Proc.devRef .tc main_arg0) = a0 m c := (keepB_arg0 (W1 m ρ c)).trans (W1_arg0 m ρ c)
theorem W2_arg2 : W2 m ρ c (Proc.devRef .tc main_arg2) = a2 m c := (keepB_arg2 (W1 m ρ c)).trans (W1_arg2 m ρ c)
theorem W2_arg3 : W2 m ρ c (Proc.devRef .tc main_arg3) = a3 m c := (keepB_arg3 (W1 m ρ c)).trans (W1_arg3 m ρ c)
theorem W2_arg4 : W2 m ρ c (Proc.devRef .tc main_arg4) = a4 m c := (keepB_arg4 (W1 m ρ c)).trans (W1_arg4 m ρ c)
theorem W2_arg5 : W2 m ρ c (Proc.devRef .tc main_arg5) = a5 m c := (keepB_arg5 (W1 m ρ c)).trans (W1_arg5 m ρ c)

/-! ## At the first region's entry -/

theorem W3_norm : W3 m ρ c (Proc.devRef .tc main_v29) = val_main_v30 (F := Ideal) (a1 m c) :=
  norm_of (W2 m ρ c) (a1 m c) (W2_src m ρ c) (W2_dst m ρ c) (W2_dis m ρ c)
theorem W3_src : W3 m ρ c (Proc.devRef .tc main_v5) = val_main_v6 (F := Ideal) (a1 m c) := (keepC_v5 (W2 m ρ c)).trans (W2_src m ρ c)
theorem W3_dst : W3 m ρ c (Proc.devRef .tc main_v6) = val_main_v7 (F := Ideal) (a1 m c) := (keepC_v6 (W2 m ρ c)).trans (W2_dst m ρ c)
theorem W3_arg0 : W3 m ρ c (Proc.devRef .tc main_arg0) = a0 m c := (keepC_arg0 (W2 m ρ c)).trans (W2_arg0 m ρ c)
theorem W3_arg2 : W3 m ρ c (Proc.devRef .tc main_arg2) = a2 m c := (keepC_arg2 (W2 m ρ c)).trans (W2_arg2 m ρ c)
theorem W3_arg3 : W3 m ρ c (Proc.devRef .tc main_arg3) = a3 m c := (keepC_arg3 (W2 m ρ c)).trans (W2_arg3 m ρ c)
theorem W3_arg4 : W3 m ρ c (Proc.devRef .tc main_arg4) = a4 m c := (keepC_arg4 (W2 m ρ c)).trans (W2_arg4 m ρ c)
theorem W3_arg5 : W3 m ρ c (Proc.devRef .tc main_arg5) = a5 m c := (keepC_arg5 (W2 m ρ c)).trans (W2_arg5 m ρ c)

/-! ## At the first region's exit: its output array is x times W1, every other buffer as entered -/

theorem W4_prod : W4 m ρ c (Proc.devRef .tc main_v30) = val_main_v4 (F := Ideal) (a0 m c) (a2 m c) := by
  refine (W4_arr m ρ c 2).trans ((FirstProduct.array_eq (V3 m ρ) c).trans ?_)
  rw [show V3 m ρ c main_arg0 = a0 m c from W3_arg0 m ρ c, show V3 m ρ c main_arg2 = a2 m c from W3_arg2 m ρ c]
  unfold val_main_v4
  exact (dotGeneral_eq_prod (M := 100000) (K := 256) (N := 32) _ ⟨rfl, rfl, rfl, rfl, rfl, rfl⟩ none _ _).symm
theorem W4_src : W4 m ρ c (Proc.devRef .tc main_v5) = val_main_v6 (F := Ideal) (a1 m c) := (W4_of_ne m ρ c main_v5 (by decide)).trans (W3_src m ρ c)
theorem W4_dst : W4 m ρ c (Proc.devRef .tc main_v6) = val_main_v7 (F := Ideal) (a1 m c) := (W4_of_ne m ρ c main_v6 (by decide)).trans (W3_dst m ρ c)
theorem W4_norm : W4 m ρ c (Proc.devRef .tc main_v29) = val_main_v30 (F := Ideal) (a1 m c) := (W4_of_ne m ρ c main_v29 (by decide)).trans (W3_norm m ρ c)
theorem W4_arg3 : W4 m ρ c (Proc.devRef .tc main_arg3) = a3 m c := (W4_of_ne m ρ c main_arg3 (by decide)).trans (W3_arg3 m ρ c)
theorem W4_arg4 : W4 m ρ c (Proc.devRef .tc main_arg4) = a4 m c := (W4_of_ne m ρ c main_arg4 (by decide)).trans (W3_arg4 m ρ c)
theorem W4_arg5 : W4 m ρ c (Proc.devRef .tc main_arg5) = a5 m c := (W4_of_ne m ρ c main_arg5 (by decide)).trans (W3_arg5 m ρ c)

/-! ## After the first layer's aggregation, and after its maximum with zero (the second region's entry) -/

theorem W5_agg : W5 m ρ c (Proc.devRef .tc main_v46) = val_main_v46 (F := Ideal) (a0 m c) (a1 m c) (a2 m c) (a3 m c) :=
  agg1_of (W4 m ρ c) (a0 m c) (a1 m c) (a2 m c) (a3 m c) (W4_src m ρ c) (W4_dst m ρ c) (W4_norm m ρ c) (W4_prod m ρ c) (W4_arg3 m ρ c)
theorem W5_src : W5 m ρ c (Proc.devRef .tc main_v5) = val_main_v6 (F := Ideal) (a1 m c) := (keepD_v5 (W4 m ρ c)).trans (W4_src m ρ c)
theorem W5_dst : W5 m ρ c (Proc.devRef .tc main_v6) = val_main_v7 (F := Ideal) (a1 m c) := (keepD_v6 (W4 m ρ c)).trans (W4_dst m ρ c)
theorem W5_norm : W5 m ρ c (Proc.devRef .tc main_v29) = val_main_v30 (F := Ideal) (a1 m c) := (keepD_v29 (W4 m ρ c)).trans (W4_norm m ρ c)
theorem W5_arg4 : W5 m ρ c (Proc.devRef .tc main_arg4) = a4 m c := (keepD_arg4 (W4 m ρ c)).trans (W4_arg4 m ρ c)
theorem W5_arg5 : W5 m ρ c (Proc.devRef .tc main_arg5) = a5 m c := (keepD_arg5 (W4 m ρ c)).trans (W4_arg5 m ρ c)

theorem W6_relu : W6 m ρ c (Proc.devRef .tc main_v47) = val_main_v47 (F := Ideal) (a0 m c) (a1 m c) (a2 m c) (a3 m c) :=
  relu_of (W5 m ρ c) (a0 m c) (a1 m c) (a2 m c) (a3 m c) (W5_agg m ρ c)
theorem W6_src : W6 m ρ c (Proc.devRef .tc main_v5) = val_main_v6 (F := Ideal) (a1 m c) := (keepE_v5 (W5 m ρ c)).trans (W5_src m ρ c)
theorem W6_dst : W6 m ρ c (Proc.devRef .tc main_v6) = val_main_v7 (F := Ideal) (a1 m c) := (keepE_v6 (W5 m ρ c)).trans (W5_dst m ρ c)
theorem W6_norm : W6 m ρ c (Proc.devRef .tc main_v29) = val_main_v30 (F := Ideal) (a1 m c) := (keepE_v29 (W5 m ρ c)).trans (W5_norm m ρ c)
theorem W6_arg4 : W6 m ρ c (Proc.devRef .tc main_arg4) = a4 m c := (keepE_arg4 (W5 m ρ c)).trans (W5_arg4 m ρ c)
theorem W6_arg5 : W6 m ρ c (Proc.devRef .tc main_arg5) = a5 m c := (keepE_arg5 (W5 m ρ c)).trans (W5_arg5 m ρ c)

/-! ## At the second region's exit: its output array is the first layer's output times W2 -/

theorem W7_prod : W7 m ρ c (Proc.devRef .tc main_v48) = val_main_v48 (F := Ideal) (a0 m c) (a1 m c) (a2 m c) (a3 m c) (a4 m c) := by
  refine (W7_arr m ρ c 2).trans ((SecondProduct.array_eq (V6 m ρ) c).trans ?_)
  rw [show V6 m ρ c main_v47 = val_main_v47 (F := Ideal) (a0 m c) (a1 m c) (a2 m c) (a3 m c) from W6_relu m ρ c, show V6 m ρ c main_arg4 = a4 m c from W6_arg4 m ρ c]
  unfold val_main_v48
  exact (dotGeneral_eq_prod (M := 100000) (K := 32) (N := 12) _ ⟨rfl, rfl, rfl, rfl, rfl, rfl⟩ none _ _).symm
theorem W7_src : W7 m ρ c (Proc.devRef .tc main_v5) = val_main_v6 (F := Ideal) (a1 m c) := (W7_of_ne m ρ c main_v5 (by decide)).trans (W6_src m ρ c)
theorem W7_dst : W7 m ρ c (Proc.devRef .tc main_v6) = val_main_v7 (F := Ideal) (a1 m c) := (W7_of_ne m ρ c main_v6 (by decide)).trans (W6_dst m ρ c)
theorem W7_norm : W7 m ρ c (Proc.devRef .tc main_v29) = val_main_v30 (F := Ideal) (a1 m c) := (W7_of_ne m ρ c main_v29 (by decide)).trans (W6_norm m ρ c)
theorem W7_arg5 : W7 m ρ c (Proc.devRef .tc main_arg5) = a5 m c := (W7_of_ne m ρ c main_arg5 (by decide)).trans (W6_arg5 m ρ c)

/-! ## The result -/

/-- What the run leaves in the result buffer is the reference's result term of the arguments as launched. -/
theorem result : W8 m ρ c (Proc.devRef .tc main_v64) = val_main_v90 (F := Ideal) (a0 m c) (a1 m c) (a2 m c) (a3 m c) (a4 m c) (a5 m c) :=
  agg2_of (W7 m ρ c) (a0 m c) (a1 m c) (a2 m c) (a3 m c) (a4 m c) (a5 m c)
    ((W7_src m ρ c).trans (second_src _).symm) ((W7_dst m ρ c).trans (second_dst _).symm) ((W7_norm m ρ c).trans (second_norm _).symm)
    (W7_prod m ρ c) (W7_arg5 m ρ c)

end Cert.KernelIdeal.Boundaries

end
-- ==== Proof.lean ====
/-
  The certificate of a two-layer graph convolution whose two dense products run as pallas_calls.

  Both programs compute, from node features x, an edge list and two weight matrices with biases,
    h   = relu (A (x W1) + b1),    out = A (h W2) + b2,
  where A gathers rows at the edges' sources, scales them by norm = dis[s] * dis[d] with dis = 1/sqrt(deg) on the nodes of
  positive in-degree (self loops added) and 0 elsewhere, and scatter-adds them at the edges' targets. The reference takes
  each product with the host's dot_general; the kernel's program takes it in a pallas_call over twenty row blocks of
  5000 rows, casting the operands to bf16 and accumulating from zero. On the extended reals a change of float format is
  the identity and both products are the plain sum over the contracted index, so block t of the kernel's product is
  block t of the reference's, and the twenty blocks tile the array. Every other operation is the same host operation on
  both sides; the reference computes the index vectors and norm once per layer, the kernel's program once, and the two
  copies are the same function of the edge list. No law of the extended reals beyond this is used, so the precondition
  is never opened.

  The frames of the kernel's program at both instances are the generated ones. The reference's frame is its run with
  the result dropped. The idealization ledger is empty. For the value claim the kernel's run is taken once more with the
  result buffer named (KernelIdealRun), its contents are walked through the host stretches and the two regions
  (HostStages, FirstProduct, SecondProduct, Boundaries) to the reference's result term, and the reference's run ends at
  the same term.
-/
import proofs.«123318_j67259187855731_1_alg».proof.Defs
import proofs.«123318_j67259187855731_1_alg».proof.Proof.Gen.Kernel
import proofs.«123318_j67259187855731_1_alg».proof.Proof.Gen.Kernel.Skeleton
import proofs.«123318_j67259187855731_1_alg».proof.Proof.Gen.Kernel.Launch
import proofs.«123318_j67259187855731_1_alg».proof.Proof.Gen.Kernel.Points
import proofs.«123318_j67259187855731_1_alg».proof.Proof.Gen.Kernel.Frame
import proofs.«123318_j67259187855731_1_alg».proof.Proof.Gen.KernelIdeal
import proofs.«123318_j67259187855731_1_alg».proof.Proof.Gen.KernelIdeal.Skeleton
import proofs.«123318_j67259187855731_1_alg».proof.Proof.Gen.KernelIdeal.Launch
import proofs.«123318_j67259187855731_1_alg».proof.Proof.Gen.KernelIdeal.Points
import proofs.«123318_j67259187855731_1_alg».proof.Proof.Gen.KernelIdeal.Frame
import proofs.«123318_j67259187855731_1_alg».proof.Proof.Gen.ReferenceIdeal
import proofs.«123318_j67259187855731_1_alg».proof.Proof.Gen.Pre_finite_inputs
import proofs.«123318_j67259187855731_1_alg».proof.Proof.KernelIdealRun
import proofs.«123318_j67259187855731_1_alg».proof.Proof.ReferenceIdealRun
import proofs.«123318_j67259187855731_1_alg».proof.Proof.ReferenceIdealRead
import proofs.«123318_j67259187855731_1_alg».proof.Proof.Boundaries
import Idealize.ShloMosaic.Adequacy
import Idealize.ShloMosaic.Init

noncomputable section

namespace Cert.Proof

open Idealize.ShloMosaic Idealize.SL.Sem Cert.Kernel

/-- The kernel's program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on the arguments both programs end with the reference's result term of those arguments. -/
theorem algebraic : Cert.algebraic_KernelIdeal_ReferenceIdeal := by
  intro m ρ m' ρ' _ hagree
  refine ⟨fun c => Cert.ReferenceIdeal.ReadP.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundaries.result m ρ c), (h c).2⟩)
      (Cert.KernelIdeal.Launched.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v90_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
